-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 64#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S16384, .i32⟩
  | .hbm, ⟨1, _⟩ => ⟨S16384x1, .i32⟩
  | .hbm, ⟨2, _⟩ => ⟨S1x16384, .i32⟩
  | .hbm, ⟨3, _⟩ => ⟨S16384x16384, .f32⟩
  | .local _ .vmem, ⟨0, _⟩ => ⟨S2048x1, .i32⟩
  | .local _ .vmem, ⟨1, _⟩ => ⟨S2048x1, .i32⟩
  | .local _ .vmem, ⟨2, _⟩ => ⟨S1x2048, .i32⟩
  | .local _ .vmem, ⟨3, _⟩ => ⟨S1x2048, .i32⟩
  | .local _ .vmem, ⟨4, _⟩ => ⟨S2048x2048, .f32⟩
  | .local _ .vmem, ⟨5, _⟩ => ⟨S2048x2048, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16384_S16384x1 : S16384.ShapeCasts S16384x1
  shapeCasts_S16384_S1x16384 : S16384.ShapeCasts S1x16384
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  inb_S2048x2048_S2048x2048_0_0 : ∀ a, (![0, 0] : Fin 2 → Nat) a + S2048x2048.size a ≤ S2048x2048.size a
  h_S2048x2048 : 0 < S2048x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S16384x1.size a
  hwx0_0 : ∀ i : grid0.Coords, EltTy.bits .i32 = 32 ∨ (Rect.block (s := S16384x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .i32 = 32 ∨ (Rect.block (s := S1x16384) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S16384x16384.size a
  hwx0_2 : ∀ i : grid0.Coords, EltTy.bits .f32 = 32 ∨ (Rect.block (s := S16384x16384) S2048x2048.size (cc0_transform_2 i) (hinb0_2 i)).WholeWords (EltTy.packing .f32)

variable [Facts₀]

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S64x16384 : Shape := ⟨2, ![64, 16384]⟩
abbrev S16384x16384 : Shape := ⟨2, ![16384, 16384]⟩

abbrev nBuf : Space → Nat
  | .hbm => 9
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x1, .i32⟩
  | .hbm, ⟨2, _⟩ => ⟨S1x64, .i32⟩
  | .hbm, ⟨3, _⟩ => ⟨S16384x64, .i32⟩
  | .hbm, ⟨4, _⟩ => ⟨S16384x64, .i32⟩
  | .hbm, ⟨5, _⟩ => ⟨S16384x64, .i1⟩
  | .hbm, ⟨6, _⟩ => ⟨S16384x64, .f32⟩
  | .hbm, ⟨7, _⟩ => ⟨S64x16384, .f32⟩
  | .hbm, ⟨8, _⟩ => ⟨S16384x16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  transposes_S16384x64_S64x16384_1_0 : S16384x64.Transposes [1, 0] S64x16384
  dot_S16384x64_S64x16384_S16384x16384_1_0_0_1_n_n_wf : DotDims.WF S16384x64 S64x16384 S16384x16384 [1] [0] [0] [1] [] []

variable [Facts₀]

def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.Indicator.lean ====
/-
  Equality of labels as arithmetic on the extended reals.

  For 32-bit words `a`, `b`: the kernel's entry is the bit `a = b` widened to a word and read as a signed
  integer, so it is `1` when the labels agree and `0` otherwise (`eqInd`). The reference's entry is the inner
  product of two one-hot rows of length 64, `∑ k, [a = k] · [b = k]` (`hot`). When `a` is one of the 64 classes
  exactly one term of the sum can be non-zero, the one at `k = a`, and it is `[b = a]`: the two agree
  (`sum_hot_mul_hot`). Outside the 64 classes every `[a = k]` vanishes and the sum is `0` even on the
  diagonal, which is why the label range is needed.
-/
import Idealize.ShloMosaic.PureOps.Ideal
import Idealize.ShloMosaic.Lib.Affine

noncomputable section

namespace Cert.Gram

open Idealize.ShloMosaic

/-- The kernel's entry for labels `a`, `b`: the equality bit, widened to 32 bits, as a signed integer. -/
def eqInd (a b : BitVec 32) : EReal := FloatOps.sitofp (F := Ideal) .f32 ((IntOp.cmpi .eq a b).setWidth 32)

/-- The reference's one-hot entry: label `a` against class `k`, the bit as an unsigned integer. -/
def hot (a : BitVec 32) (k : Fin 64) : EReal := FloatOps.uitofp (F := Ideal) .f32 (IntOp.cmpi .eq a (BitVec.ofNat 32 k.val))

theorem eqInd_of_eq {a b : BitVec 32} (h : a = b) : eqInd a b = 1 := by
  subst h
  have e : IntOp.cmpi .eq a a = 1#1 := IntOp.cmpi_eq.mpr rfl
  unfold eqInd; rw [e]
  show (((((1#1 : BitVec 1).setWidth 32).toInt : ℝ)) : EReal) = 1
  rw [show ((1#1 : BitVec 1).setWidth 32).toInt = 1 from by decide]
  norm_num

theorem eqInd_of_ne {a b : BitVec 32} (h : a ≠ b) : eqInd a b = 0 := by
  have e : IntOp.cmpi .eq a b = 0#1 := by
    rcases BitVec.eq_zero_or_eq_one (IntOp.cmpi .eq a b) with h0 | h1
    · exact h0
    · exact absurd (IntOp.cmpi_eq.mp h1) h
  unfold eqInd; rw [e]
  show (((((0#1 : BitVec 1).setWidth 32).toInt : ℝ)) : EReal) = 0
  rw [show ((0#1 : BitVec 1).setWidth 32).toInt = 0 from by decide]
  norm_num

theorem hot_of_eq {a : BitVec 32} {k : Fin 64} (h : a = BitVec.ofNat 32 k.val) : hot a k = 1 := by
  have e : IntOp.cmpi .eq a (BitVec.ofNat 32 k.val) = 1#1 := IntOp.cmpi_eq.mpr h
  unfold hot; rw [e]
  show ((((1#1 : BitVec 1).toNat : ℝ)) : EReal) = 1
  rw [show (1#1 : BitVec 1).toNat = 1 from by decide]
  norm_num

theorem hot_of_ne {a : BitVec 32} {k : Fin 64} (h : a ≠ BitVec.ofNat 32 k.val) : hot a k = 0 := by
  have e : IntOp.cmpi .eq a (BitVec.ofNat 32 k.val) = 0#1 := by
    rcases BitVec.eq_zero_or_eq_one (IntOp.cmpi .eq a (BitVec.ofNat 32 k.val)) with h0 | h1
    · exact h0
    · exact absurd (IntOp.cmpi_eq.mp h1) h
  unfold hot; rw [e]
  show ((((0#1 : BitVec 1).toNat : ℝ)) : EReal) = 0
  rw [show (0#1 : BitVec 1).toNat = 0 from by decide]
  norm_num

/-- A label below 64 is the word of its own class. -/
theorem eq_ofNat_class {a : BitVec 32} (ha : a.toNat < 64) : a = BitVec.ofNat 32 (⟨a.toNat, ha⟩ : Fin 64).val := by
  apply BitVec.eq_of_toNat_eq
  rw [BitVec.toNat_ofNat]
  show a.toNat = a.toNat % 2 ^ 32
  omega

/-- Distinct classes are distinct words. -/
theorem ofNat_class_inj {k k' : Fin 64} (h : BitVec.ofNat 32 k.val = BitVec.ofNat 32 k'.val) : k = k' := by
  have h' := congrArg BitVec.toNat h
  rw [BitVec.toNat_ofNat, BitVec.toNat_ofNat] at h'
  have hk : k.val < 64 := k.isLt
  have hk' : k'.val < 64 := k'.isLt
  apply Fin.ext
  omega

/-- The inner product of the one-hot rows of two labels, the first of which is one of the 64 classes, is the
    indicator that the labels are equal. -/
theorem sum_hot_mul_hot (a b : BitVec 32) (ha : a.toNat < 64) : ∑ k : Fin 64, hot a k * hot b k = eqInd a b := by
  have hak : a = BitVec.ofNat 32 (⟨a.toNat, ha⟩ : Fin 64).val := eq_ofNat_class ha
  rw [Finset.sum_eq_single (⟨a.toNat, ha⟩ : Fin 64)]
  · rw [hot_of_eq hak, one_mul]
    by_cases hab : a = b
    · rw [eqInd_of_eq hab, hot_of_eq (hab ▸ hak)]
    · rw [eqInd_of_ne hab, hot_of_ne (fun hb => hab (hak.trans hb.symm))]
  · intro k _ hk
    rw [hot_of_ne (fun h => hk (ofNat_class_inj (h.symm.trans hak))), zero_mul]
  · intro h; exact absurd (Finset.mem_univ _) h

end Cert.Gram

end
-- ==== Proof.Labels.lean ====
/-
  The label range read out of the stated precondition.

  The precondition is `all ((Z ≥ 0) ∧ (Z < 64))` over the 16384 labels, compared as signed 32-bit words, and the
  claim assumes it evaluates to the bit `1`. An `and`-reduction that ends at `1` met `1` at every index, so at
  every index both comparisons hold; a word that is non-negative as a signed integer reads the same signed and
  unsigned, so its unsigned value is below 64.
-/
import proofs.«148631_j89764816486452_2_alg».proof.Pre_any_inputs
import Idealize.ShloMosaic.Lib.ReduceAll
import Idealize.ShloMosaic.Lib.Affine
import Idealize.ShloMosaic.Lib.ValueIdx

noncomputable section

namespace Cert.Gram

open Idealize.ShloMosaic

instance : Subsingleton Cert.Pre_any_inputs.S_.Idx := ⟨fun _ _ => funext fun d => d.elim0⟩

/-- A word that is at least `0` and below `64` as a signed integer has unsigned value below `64`. -/
theorem toNat_lt_of_signed_range {z : BitVec 32} (h0 : (0#32 : BitVec 32).toInt ≤ z.toInt) (h1 : z.toInt < (64#32 : BitVec 32).toInt) :
    z.toNat < 64 := by
  rw [show (0#32 : BitVec 32).toInt = 0 from by decide] at h0
  rw [show (64#32 : BitVec 32).toInt = 64 from by decide] at h1
  have hlt : 2 * z.toNat < 2 ^ 32 := BitVec.toInt_pos_iff.mp h0
  rw [BitVec.toInt_eq_toNat_of_lt hlt] at h1
  omega

/-- Under the precondition every label is one of the 64 classes. -/
theorem label_lt_of_pre {F : FTy → Type} [FloatOps F] [Cert.Pre_any_inputs.Facts] (Z : IVec Cert.Pre_any_inputs.S16384 32)
    (h : Cert.Pre_any_inputs.fn (F := F) Z = fun _ => 1#1) (i : Cert.Pre_any_inputs.S16384.Idx) : (Z i).toNat < 64 := by
  have h0 := congrFun h ValueIdx.ix0
  dsimp only [Cert.Pre_any_inputs.fn] at h0
  have hall := Host.reduce_andi_all _ _ _ _ _ h0 i
  obtain ⟨hge, hlt⟩ := IntOp.andi_eq_one.mp hall
  exact toNat_lt_of_signed_range (IntOp.cmpi_sge.mp hge) (IntOp.cmpi_slt.mp hlt)

end Cert.Gram

end
-- ==== Proof.RefValue.lean ====
/-
  The reference's result at an index.

  The reference one-hot encodes the labels over 64 classes, `oh[p, k] = [Z[p] = k]`, and multiplies the encoding by
  its transpose. On the extended reals the matrix product is the plain sum over the contracted axis, so entry
  `(p, q)` of the result is `∑ k, [Z[p] = k] · [Z[q] = k]`. Each factor is found by following one entry back
  through the transpose, the conversion of the bit, the comparison, and the two broadcasts (of the labels along the
  class axis, of the class numbers along the label axis).
-/
import proofs.«148631_j89764816486452_2_alg».proof.Proof.Gen.ReferenceIdeal.Read
import proofs.«148631_j89764816486452_2_alg».proof.Proof.Indicator

noncomputable section

namespace Cert.Gram

open Cert.ReferenceIdeal Cert.ReferenceIdeal.Gen Cert.ReferenceIdeal.Read Idealize.ShloMosaic

/-- Row `p` of the one-hot encoding reads label `p`. -/
theorem left_label (i : S16384x16384.Idx) (k : Fin 64) :
    idx_main_call0_v0 (idx_main_call0_v2 (lidx_main_v2 i k)) = ValueIdx.ix1 (i 0) :=
  funext fun a => Fin.ext (by match a with | ⟨0, _⟩ => rfl)

/-- Column `q` of the transposed encoding reads label `q`. -/
theorem right_label (i : S16384x16384.Idx) (k : Fin 64) :
    idx_main_call0_v0 (idx_main_call0_v2 (idx_main_v1 (ridx_main_v2 i k))) = ValueIdx.ix1 (i 1) :=
  funext fun a => Fin.ext (by match a with | ⟨0, _⟩ => rfl)

/-- Entry `(p, q)` of the reference's result is the inner product of the one-hot rows of labels `p` and `q`. -/
theorem ref_apply (Z : (⟨S16384, .i32⟩ : BufTy).Contents (Elt Ideal)) (i : S16384x16384.Idx) :
    val_main_v2 (F := Ideal) Z i = ∑ k : Fin 64, hot (Z (ValueIdx.ix1 (i 0))) k * hot (Z (ValueIdx.ix1 (i 1))) k := by
  rw [val_main_v2_apply]
  refine Finset.sum_congr rfl fun k _ => ?_
  simp only [val_main_v1_apply, val_main_v0_apply, val_main_call0_v4_apply, val_main_call0_v2_apply,
    val_main_call0_v0_apply, val_main_call0_v3_apply, val_main_call0_v1_apply, left_label, right_label]
  rfl

end Cert.Gram

end
-- ==== Proof.KernelValue.lean ====
/-
  What the kernel leaves in its result array.

  The host code hands the labels `Z` to the kernel twice, reshaped as a column [16384, 1] and as a row [1, 16384].
  Grid point `(a, b)` compares rows `2048·a …` of the column with columns `2048·b …` of the row, entry by entry,
  and writes block `(a, b)` of the [16384, 16384] result: the entry at `(p, q)` is the bit `Z[p] = Z[q]` read as
  an integer. The 8 × 8 blocks tile the result, so after the run the whole array is that one function of `Z`.
-/
import proofs.«148631_j89764816486452_2_alg».proof.Proof.Gen.KernelIdeal.Value
import Idealize.ShloMosaic.Lib.Pipeline.Value
import Idealize.ShloMosaic.Lib.ValueIdx
import Idealize.ShloMosaic.Lib.StableHlo.Run

noncomputable section

namespace Cert.Gram.Kernel

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The label-equality matrix of a label vector: entry `(p, q)` is the bit `Z[p] = Z[q]`, widened and converted. -/
def labelEq (Z : S16384.Idx → BitVec 32) : S16384x16384.Idx → Elt F .f32 := fun i =>
  FloatOps.sitofp .f32 ((IntOp.cmpi .eq (Z (ValueIdx.ix1 (i 0))) (Z (ValueIdx.ix1 (i 1)))).setWidth 32)

theorem origin : (![0, 0] : Fin 2 → Nat) = fun _ => 0 := funext fun a => by fin_cases a <;> rfl

/-- The labels as a column: entry `(p, 0)` of the reshaped array is label `p`. -/
theorem column_apply (c : Dev nD) (x : S16384x1.Idx) :
    V m c main_v0 x = m ((c : Thread nD τ).loc main_arg0) (ValueIdx.ix1 (x 0)) := by
  have e : (V m c main_v0 : S16384x1.Idx → BitVec 32)
      = shapeCast S16384x1 (m ((c : Thread nD τ).loc main_arg0)) shapeCasts_S16384_S16384x1 := by
    dsimp only [V, hostOps0]; after_results; rfl
  rw [e]
  refine shapeCast_apply _ _ x (ValueIdx.ix1 (x 0)) ?_
  rw [Shape.rowMajor_val_one, Shape.rowMajor_val_two]
  have h1 : (x 1).val < 1 := (x 1).isLt
  show (x 0).val = (x 0).val * 1 + (x 1).val
  omega

/-- The labels as a row: entry `(0, q)` of the reshaped array is label `q`. -/
theorem row_apply (c : Dev nD) (x : S1x16384.Idx) :
    V m c main_v1 x = m ((c : Thread nD τ).loc main_arg0) (ValueIdx.ix1 (x 1)) := by
  have e : (V m c main_v1 : S1x16384.Idx → BitVec 32)
      = shapeCast S1x16384 (m ((c : Thread nD τ).loc main_arg0)) shapeCasts_S16384_S1x16384 := by
    dsimp only [V, hostOps0]; after_results; rfl
  rw [e]
  refine shapeCast_apply _ _ x (ValueIdx.ix1 (x 1)) ?_
  rw [Shape.rowMajor_val_one, Shape.rowMajor_val_two]
  have h0 : (x 0).val < 1 := (x 0).isLt
  show (x 1).val = (x 0).val * 16384 + (x 1).val
  omega

/-- What the body leaves in the result's block, as one entry-by-entry function of the two label blocks. -/
theorem body_block (x0 : Vec F S2048x1 .i32) (x1 : Vec F S1x2048 .i32) : out0_2 x0 x1 = Value.E2 x0 x1 := by
  unfold out0_2
  funext y
  rw [Value.canon2_eq]
  simp only [View.ld_unit_zero (S := S2048x1) origin, View.ld_unit_zero (S := S1x2048) origin]

/-- The column's block moves with the result's block row, the row's block with its block column (over the 64 points). -/
theorem block_indices : ∀ t : Fin cfg0.N, win0_0.index t (0 : Fin 2) = win0_2.index t (0 : Fin 2)
    ∧ win0_1.index t (1 : Fin 2) = win0_2.index t (1 : Fin 2) :=
  (by decide +kernel : ∀ t : Fin grid0.N, _)

/-- Every block position of the 8 × 8 tiling belongs to some grid point. -/
theorem block_onto : ∀ (a : Fin 8) (b : Fin 8), ∃ t : Fin cfg0.N, win0_2.index t = ![a.val, b.val] :=
  (by decide +kernel : ∀ (a : Fin 8) (b : Fin 8), ∃ t : Fin grid0.N, win0_2.index t = ![a.val, b.val])

/-- What point `t` writes back is block `t` of the label-equality matrix. -/
theorem flushed_eq (c : Dev nD) (t : Fin cfg0.N) :
    (dats m 0 c).flushed 2 t
      = ((cfg0.win 2).blk t).view.read (Elt F) (labelEq (F := F) (m ((c : Thread nD τ).loc main_arg0))) := by
  rw [Value.flushed2, body_block]
  obtain ⟨e0, e1⟩ := block_indices t
  funext j
  show FloatOps.sitofp .f32 ((IntOp.cmpi .eq (V m c main_v0 (((cfg0.win 0).blk t).view.emb (Value.ix2_0 j)))
        (V m c main_v1 (((cfg0.win 1).blk t).view.emb (Value.ix2_1 j)))).setWidth 32)
    = FloatOps.sitofp .f32 ((IntOp.cmpi .eq
        (m ((c : Thread nD τ).loc main_arg0) (ValueIdx.ix1 ((((cfg0.win 2).blk t).view.emb j) 0)))
        (m ((c : Thread nD τ).loc main_arg0) (ValueIdx.ix1 ((((cfg0.win 2).blk t).view.emb j) 1)))).setWidth 32)
  rw [column_apply, row_apply]
  have h0 : (((cfg0.win 0).blk t).view.emb (Value.ix2_0 j)) 0 = (((cfg0.win 2).blk t).view.emb j) 0 := Fin.ext (by
    show win0_0.index t (0 : Fin 2) * 2048 + 1 * (j 0).val = win0_2.index t (0 : Fin 2) * 2048 + 1 * (j 0).val
    omega)
  have h1 : (((cfg0.win 1).blk t).view.emb (Value.ix2_1 j)) 1 = (((cfg0.win 2).blk t).view.emb j) 1 := Fin.ext (by
    show win0_1.index t (1 : Fin 2) * 2048 + 1 * (j 1).val = win0_2.index t (1 : Fin 2) * 2048 + 1 * (j 1).val
    omega)
  rw [h0, h1]

/-- An index of the result is in point `t`'s block iff each coordinate is in the block's range on its axis. -/
theorem mem_block (t : Fin cfg0.N) (i : S16384x16384.Idx) :
    i ∈ ((cfg0.win 2).blk t).view.set ↔ ∀ a : Fin 2, win0_2.index t a * S2048x2048.size a ≤ (i a).val
      ∧ (i a).val < win0_2.index t a * S2048x2048.size a + S2048x2048.size a := by
  show i ∈ ((View.whole main_v2).slice (win0_2.rect t)).set ↔ _
  rw [View.set_slice_whole, Rect.mem_set_unit]
  exact Iff.rfl

/-- The blocks tile the result: entry `(p, q)` lies in the block at position `(p / 2048, q / 2048)`. -/
theorem covered (i : S16384x16384.Idx) :
    ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := block_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- After the run the result array is the label-equality matrix of the labels as launched. -/
theorem final (c : Dev nD) :
    (dats m 0 c).arrAt 2 cfg0.N = labelEq (F := F) (m ((c : Thread nD τ).loc main_arg0)) :=
  (dats m 0 c).arrAt_eq_of_cover 2 (labelEq (F := F) (m ((c : Thread nD τ).loc main_arg0)))
    (fun t _ => flushed_eq m c t) covered

/-- Every weakly fair execution of the kernel's program ends with the result at the label-equality matrix and the
    labels unchanged. -/
theorem run : θ_run defs (onTc (τ := τ) (main (F := F))) ⟨m, fun _ => 0, ρ⟩ fun r => ∀ c : Dev nD,
      r.2.mem ((c : Thread nD τ).loc main_v2) = labelEq (F := F) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.Gram.Kernel

end
-- ==== Proof.lean ====
/-
  The kernel writes the label-equality matrix `out[p, q] = [Z[p] = Z[q]]` of 16384 integer labels, block by block,
  by comparing a column view of the labels with a row view. The reference one-hot encodes the labels over 64
  classes and multiplies the encoding by its transpose: `ret[p, q] = ∑ k < 64, [Z[p] = k] · [Z[q] = k]`.

  For a label inside the class range `0 ≤ Z[p] < 64` exactly one term of that sum survives, the one at
  `k = Z[p]`, and it is `[Z[q] = Z[p]]`; so on labels in range the two results agree entry by entry, with no
  rounding involved (every value is `0` or `1`). A label outside the range has an all-zero one-hot row, so the
  reference's diagonal entry is `0` where the kernel's is `1`: the precondition states the label range, and the
  proof uses it exactly there (`Cert.Gram.sum_hot_mul_hot`).

  The three frames are the generated ones (the reference's is its generated run with the result dropped); the
  idealization rewrote nothing, so `preserves` is `True`.
-/
import proofs.«148631_j89764816486452_2_alg».proof.Defs
import proofs.«148631_j89764816486452_2_alg».proof.Proof.Gen.Kernel
import proofs.«148631_j89764816486452_2_alg».proof.Proof.Gen.Kernel.Skeleton
import proofs.«148631_j89764816486452_2_alg».proof.Proof.Gen.Kernel.Launch
import proofs.«148631_j89764816486452_2_alg».proof.Proof.Gen.Kernel.Points
import proofs.«148631_j89764816486452_2_alg».proof.Proof.Gen.Kernel.Frame
import proofs.«148631_j89764816486452_2_alg».proof.Proof.Gen.KernelIdeal
import proofs.«148631_j89764816486452_2_alg».proof.Proof.Gen.KernelIdeal.Skeleton
import proofs.«148631_j89764816486452_2_alg».proof.Proof.Gen.KernelIdeal.Launch
import proofs.«148631_j89764816486452_2_alg».proof.Proof.Gen.KernelIdeal.Points
import proofs.«148631_j89764816486452_2_alg».proof.Proof.Gen.KernelIdeal.Frame
import proofs.«148631_j89764816486452_2_alg».proof.Proof.Gen.ReferenceIdeal
import proofs.«148631_j89764816486452_2_alg».proof.Proof.Gen.Pre_any_inputs
import proofs.«148631_j89764816486452_2_alg».proof.Proof.Gen.KernelIdeal.Value
import proofs.«148631_j89764816486452_2_alg».proof.Proof.Gen.ReferenceIdeal.Run
import proofs.«148631_j89764816486452_2_alg».proof.Proof.Gen.ReferenceIdeal.Read
import proofs.«148631_j89764816486452_2_alg».proof.Proof.Indicator
import proofs.«148631_j89764816486452_2_alg».proof.Proof.Labels
import proofs.«148631_j89764816486452_2_alg».proof.Proof.RefValue
import proofs.«148631_j89764816486452_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at the label-equality matrix of the labels: the kernel by its blocks
    (`Cert.Gram.Kernel.run`), the reference because, entry by entry, the inner product of two one-hot rows of labels
    in range is the indicator that the labels are equal. -/
theorem algebraic : Cert.algebraic_KernelIdeal_ReferenceIdeal := by
  intro m ρ m' ρ' hpre hagree
  refine ⟨fun c => Cert.Gram.Kernel.labelEq (F := Ideal) (m ((c : Thread Cert.KernelIdeal.nD Cert.KernelIdeal.τ).loc Cert.KernelIdeal.main_arg0)),
    Cert.Gram.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, hagree c]
  funext i
  rw [Cert.Gram.ref_apply, Cert.Gram.sum_hot_mul_hot _ _ (Cert.Gram.label_lt_of_pre (F := Ideal) _ (hpre c) _)]
  rfl

theorem claim : Cert.Claim := ⟨Cert.Kernel.Gen.facts, Cert.KernelIdeal.Gen.facts, Cert.ReferenceIdeal.Gen.facts, Cert.Pre_any_inputs.Gen.facts,
  frame_kernel, frame_kernelIdeal, frame_referenceIdeal, trivial, algebraic⟩

end Cert.Proof

end
